-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S8x6 : Shape := ⟨2, ![8, 6]⟩
abbrev S8 : Shape := ⟨1, ![8]⟩
abbrev S4x8 : Shape := ⟨2, ![4, 8]⟩
abbrev S4 : Shape := ⟨1, ![4]⟩
abbrev S2x4 : Shape := ⟨2, ![2, 4]⟩
abbrev S2 : Shape := ⟨1, ![2]⟩
abbrev S1x2 : Shape := ⟨2, ![1, 2]⟩
abbrev S1 : Shape := ⟨1, ![1]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel
  bcast_S_S8x6 : S_.BroadcastsInDim S8x6 (![] : Fin 0 → Fin S8x6.rank)
  reducesTo_S8x6_S_d0_1 : S8x6.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S2x4 : S_.BroadcastsInDim S2x4 (![] : Fin 0 → Fin S2x4.rank)
  reducesTo_S2x4_S_d0_1 : S2x4.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x2 .f32) (main_arg8 : FVec F S1 .f32) (main_v33 : IVec S_ 1) : IVec S_ 1 :=
  let main_v34 : FVec F S1x2 .f32 := Host.absf main_arg7
  let main_cst_12 : FVec F S_ .f32 := constant S_ .f32 0x7F800000#32
  let main_v35 : FVec F S1x2 .f32 := broadcastInDim S1x2 ![] bcast_S_S1x2 main_cst_12
  let main_v36 : IVec S1x2 1 := cmpf .olt main_v34 main_v35
  let main_c_13 : IVec S_ 1 := constantI S_ 1 1#1
  let main_v37 : IVec S_ 1 := (fun x v => Host.reduce IntOp.andi x v reducesTo_S1x2_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S4 .f32) (main_arg5 : FVec F S2x4 .f32) (main_arg6 : FVec F S2 .f32) (main_arg7 : FVec F S1x2 .f32) (main_arg8 : FVec F S1 .f32) (main_v13 : IVec S_ 1) (main_v16 : IVec S4x8 1) : IVec S_ 1 :=
  let main_c_5 : IVec S_ 1 := constantI S_ 1 1#1
  let main_v17 : IVec S_ 1 := (fun x v => Host.reduce IntOp.andi x v reducesTo_S4x8_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S2x4 .f32 := Host.absf main_arg5
  let main_cst_8 : FVec F S_ .f32 := constant S_ .f32 0x7F800000#32
  let main_v25 : FVec F S2x4 .f32 := broadcastInDim S2x4 ![] bcast_S_S2x4 main_cst_8
  let main_v26 : IVec S2x4 1 := cmpf .olt main_v24 main_v25
  let main_c_9 : IVec S_ 1 := constantI S_ 1 1#1
  let main_v27 : IVec S_ 1 := (fun x v => Host.reduce IntOp.andi x v reducesTo_S2x4_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_v33

def fn {F : FTy → Type} [FloatOps F] (main_arg0 : FVec F S4194304x6 .f32) (main_arg1 : FVec F S8x6 .f32) (main_arg2 : FVec F S8 .f32) (main_arg3 : FVec F S4x8 .f32) (main_arg4 : FVec F S4 .f32) (main_arg5 : FVec F S2x4 .f32) (main_arg6 : FVec F S2 .f32) (main_arg7 : FVec F S1x2 .f32) (main_arg8 : FVec F S1 .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  let main_v4 : FVec F S8x6 .f32 := Host.absf main_arg1
  let main_cst_0 : FVec F S_ .f32 := constant S_ .f32 0x7F800000#32
  let main_v5 : FVec F S8x6 .f32 := broadcastInDim S8x6 ![] bcast_S_S8x6 main_cst_0
  let main_v6 : IVec S8x6 1 := cmpf .olt main_v4 main_v5
  let main_c_1 : IVec S_ 1 := constantI S_ 1 1#1
  let main_v7 : IVec S_ 1 := (fun x v => Host.reduce IntOp.andi x v reducesTo_S8x6_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S4x8 .f32 := Host.absf main_arg3
  let main_cst_4 : FVec F S_ .f32 := constant S_ .f32 0x7F800000#32
  let main_v15 : FVec F S4x8 .f32 := broadcastInDim S4x8 ![] bcast_S_S4x8 main_cst_4
  let main_v16 : IVec S4x8 1 := cmpf .olt main_v14 main_v15
  fn_part1 (F := F) main_arg4 main_arg5 main_arg6 main_arg7 main_arg8 main_v13 main_v16
-- ==== Kernel.lean ====
abbrev S4194304x6 : Shape := ⟨2, ![4194304, 6]⟩
abbrev S8x6 : Shape := ⟨2, ![8, 6]⟩
abbrev S8 : Shape := ⟨1, ![8]⟩
abbrev S4x8 : Shape := ⟨2, ![4, 8]⟩
abbrev S4 : Shape := ⟨1, ![4]⟩
abbrev S2x4 : Shape := ⟨2, ![2, 4]⟩
abbrev S2 : Shape := ⟨1, ![2]⟩
abbrev S1x2 : Shape := ⟨2, ![1, 2]⟩
abbrev S1 : Shape := ⟨1, ![1]⟩
abbrev S4194304x1 : Shape := ⟨2, ![4194304, 1]⟩
abbrev S8192x6 : Shape := ⟨2, ![8192, 6]⟩
abbrev S8192x1 : Shape := ⟨2, ![8192, 1]⟩
abbrev S6x8 : Shape := ⟨2, ![6, 8]⟩
abbrev S8192x8 : Shape := ⟨2, ![8192, 8]⟩
abbrev S1x8 : Shape := ⟨2, ![1, 8]⟩
abbrev S8x4 : Shape := ⟨2, ![8, 4]⟩
abbrev S8192x4 : Shape := ⟨2, ![8192, 4]⟩
abbrev S1x4 : Shape := ⟨2, ![1, 4]⟩
abbrev S4x2 : Shape := ⟨2, ![4, 2]⟩
abbrev S8192x2 : Shape := ⟨2, ![8192, 2]⟩
abbrev S2x1 : Shape := ⟨2, ![2, 1]⟩
abbrev S1x1 : Shape := ⟨2, ![1, 1]⟩

abbrev nBuf : Space → Nat
  | .hbm => 10
  | .vmem => 12
  | .smem => 0
  | _ => 0

abbrev bufTy : (tb : Table) → Fin (tcTables nBuf tb) → BufTy
  | .hbm, ⟨0, _⟩ => ⟨S4194304x6, .f32⟩
  | .hbm, ⟨1, _⟩ => ⟨S8x6, .f32⟩
  | .hbm, ⟨2, _⟩ => ⟨S8, .f32⟩
  | .hbm, ⟨3, _⟩ => ⟨S4x8, .f32⟩
  | .hbm, ⟨4, _⟩ => ⟨S4, .f32⟩
  | .hbm, ⟨5, _⟩ => ⟨S2x4, .f32⟩
  | .hbm, ⟨6, _⟩ => ⟨S2, .f32⟩
  | .hbm, ⟨7, _⟩ => ⟨S1x2, .f32⟩
  | .hbm, ⟨8, _⟩ => ⟨S1, .f32⟩
  | .hbm, ⟨9, _⟩ => ⟨S4194304x1, .f32⟩
  | .local _ .vmem, ⟨0, _⟩ => ⟨S8192x6, .f32⟩
  | .local _ .vmem, ⟨1, _⟩ => ⟨S8192x6, .f32⟩
  | .local _ .vmem, ⟨2, _⟩ => ⟨S8x6, .f32⟩
  | .local _ .vmem, ⟨3, _⟩ => ⟨S8, .f32⟩
  | .local _ .vmem, ⟨4, _⟩ => ⟨S4x8, .f32⟩
  | .local _ .vmem, ⟨5, _⟩ => ⟨S4, .f32⟩
  | .local _ .vmem, ⟨6, _⟩ => ⟨S2x4, .f32⟩
  | .local _ .vmem, ⟨7, _⟩ => ⟨S2, .f32⟩
  | .local _ .vmem, ⟨8, _⟩ => ⟨S1x2, .f32⟩
  | .local _ .vmem, ⟨9, _⟩ => ⟨S1, .f32⟩
  | .local _ .vmem, ⟨10, _⟩ => ⟨S8192x1, .f32⟩
  | .local _ .vmem, ⟨11, _⟩ => ⟨S8192x1, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S8192x6_S8192x6_0_0 : ∀ a, (![0, 0] : Fin 2 → Nat) a + S8192x6.size a ≤ S8192x6.size a
  h_S8192x6 : 0 < S8192x6.numel
  inb_S8x6_S8x6_0_0 : ∀ a, (![0, 0] : Fin 2 → Nat) a + S8x6.size a ≤ S8x6.size a
  h_S8x6 : 0 < S8x6.numel
  inb_S8_S8_0 : ∀ a, (![0] : Fin 1 → Nat) a + S8.size a ≤ S8.size a
  h_S8 : 0 < S8.numel
  transposes_S8x6_p1_0_S6x8 : S8x6.Transposes [1, 0] S6x8
  shapeCasts_S8_S1x8 : S8.ShapeCasts S1x8
  broadcasts_S1x8_S8192x8 : S1x8.Broadcasts S8192x8
  inb_S4x8_S4x8_0_0 : ∀ a, (![0, 0] : Fin 2 → Nat) a + S4x8.size a ≤ S4x8.size a
  h_S4x8 : 0 < S4x8.numel
  inb_S4_S4_0 : ∀ a, (![0] : Fin 1 → Nat) a + S4.size a ≤ S4.size a
  h_S4 : 0 < S4.numel
  transposes_S4x8_p1_0_S8x4 : S4x8.Transposes [1, 0] S8x4
  shapeCasts_S4_S1x4 : S4.ShapeCasts S1x4
  broadcasts_S1x4_S8192x4 : S1x4.Broadcasts S8192x4
  inb_S2x4_S2x4_0_0 : ∀ a, (![0, 0] : Fin 2 → Nat) a + S2x4.size a ≤ S2x4.size a
  h_S2x4 : 0 < S2x4.numel
  inb_S2_S2_0 : ∀ a, (![0] : Fin 1 → Nat) a + S2.size a ≤ S2.size a
  h_S2 : 0 < S2.numel
  transposes_S2x4_p1_0_S4x2 : S2x4.Transposes [1, 0] S4x2
  shapeCasts_S2_S1x2 : S2.ShapeCasts S1x2
  broadcasts_S1x2_S8192x2 : S1x2.Broadcasts S8192x2
  inb_S1x2_S1x2_0_0 : ∀ a, (![0, 0] : Fin 2 → Nat) a + S1x2.size a ≤ S1x2.size a
  h_S1x2 : 0 < S1x2.numel
  inb_S1_S1_0 : ∀ a, (![0] : Fin 1 → Nat) a + S1.size a ≤ S1.size a
  h_S1 : 0 < S1.numel
  transposes_S1x2_p1_0_S2x1 : S1x2.Transposes [1, 0] S2x1
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x6_S6x8_S8192x8_1_0_0_1_n_n_wf : DotDims.WF S8192x6 S6x8 S8192x8 [1] [0] [0] [1] [] []
  dot_S8192x8_S8x4_S8192x4_1_0_0_1_n_n_wf : DotDims.WF S8192x8 S8x4 S8192x4 [1] [0] [0] [1] [] []
  dot_S8192x4_S4x2_S8192x2_1_0_0_1_n_n_wf : DotDims.WF S8192x4 S4x2 S8192x2 [1] [0] [0] [1] [] []
  dot_S8192x2_S2x1_S8192x1_1_0_0_1_n_n_wf : DotDims.WF S8192x2 S2x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S4194304x6.size a
  hwx0_0 : ∀ i : grid0.Coords, EltTy.bits .f32 = 32 ∨ (Rect.block (s := S4194304x6) S8192x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x6.size a ≤ S8x6.size a
  hwx0_1 : ∀ i : grid0.Coords, EltTy.bits .f32 = 32 ∨ (Rect.block (s := S8x6) S8x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8.size a ≤ S4x8.size a
  hwx0_3 : ∀ i : grid0.Coords, EltTy.bits .f32 = 32 ∨ (Rect.block (s := S4x8) S4x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x4.size a ≤ S2x4.size a
  hwx0_5 : ∀ i : grid0.Coords, EltTy.bits .f32 = 32 ∨ (Rect.block (s := S2x4) S2x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x1.size a ≤ S4194304x1.size a
  hwx0_9 : ∀ i : grid0.Coords, EltTy.bits .f32 = 32 ∨ (Rect.block (s := S4194304x1) S8192x1.size (cc0_transform_9 i) (hinb0_9 i)).WholeWords (EltTy.packing .f32)

variable [Facts₀]

def dot_S8192x6_S6x8_S8192x8_1_0_0_1_n_n : DotDims S8192x6 S6x8 S8192x8 where
  lhsContracting := [1]
  rhsContracting := [0]
  lhsNonContracting := [0]
  rhsNonContracting := [1]
  lhsBatch := []
  rhsBatch := []
  wf := dot_S8192x6_S6x8_S8192x8_1_0_0_1_n_n_wf
def dot_S8192x8_S8x4_S8192x4_1_0_0_1_n_n : DotDims S8192x8 S8x4 S8192x4 where
  lhsContracting := [1]
  rhsContracting := [0]
  lhsNonContracting := [0]
  rhsNonContracting := [1]
  lhsBatch := []
  rhsBatch := []
  wf := dot_S8192x8_S8x4_S8192x4_1_0_0_1_n_n_wf
def dot_S8192x4_S4x2_S8192x2_1_0_0_1_n_n : DotDims S8192x4 S4x2 S8192x2 where
  lhsContracting := [1]
  rhsContracting := [0]
  lhsNonContracting := [0]
  rhsNonContracting := [1]
  lhsBatch := []
  rhsBatch := []
  wf := dot_S8192x4_S4x2_S8192x2_1_0_0_1_n_n_wf
def dot_S8192x2_S2x1_S8192x1_1_0_0_1_n_n : DotDims S8192x2 S2x1 S8192x1 where
  lhsContracting := [1]
  rhsContracting := [0]
  lhsNonContracting := [0]
  rhsNonContracting := [1]
  lhsBatch := []
  rhsBatch := []
  wf := dot_S8192x2_S2x1_S8192x1_1_0_0_1_n_n_wf

abbrev win0_0 : Pipeline.Window sig grid0 :=
  Pipeline.Window.ofSpec (Memref.whole main_arg0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S8192x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4194304x6 : Shape := ⟨2, ![4194304, 6]⟩
abbrev S8x6 : Shape := ⟨2, ![8, 6]⟩
abbrev S8 : Shape := ⟨1, ![8]⟩
abbrev S4x8 : Shape := ⟨2, ![4, 8]⟩
abbrev S4 : Shape := ⟨1, ![4]⟩
abbrev S2x4 : Shape := ⟨2, ![2, 4]⟩
abbrev S2 : Shape := ⟨1, ![2]⟩
abbrev S1x2 : Shape := ⟨2, ![1, 2]⟩
abbrev S1 : Shape := ⟨1, ![1]⟩
abbrev S6x8 : Shape := ⟨2, ![6, 8]⟩
abbrev S4194304x8 : Shape := ⟨2, ![4194304, 8]⟩
abbrev S1x8 : Shape := ⟨2, ![1, 8]⟩
abbrev S_ : Shape := ⟨0, ![]⟩
abbrev S8x4 : Shape := ⟨2, ![8, 4]⟩
abbrev S4194304x4 : Shape := ⟨2, ![4194304, 4]⟩
abbrev S1x4 : Shape := ⟨2, ![1, 4]⟩
abbrev S4x2 : Shape := ⟨2, ![4, 2]⟩
abbrev S4194304x2 : Shape := ⟨2, ![4194304, 2]⟩
abbrev S2x1 : Shape := ⟨2, ![2, 1]⟩
abbrev S4194304x1 : Shape := ⟨2, ![4194304, 1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S8x6, .f32⟩
  | .hbm, ⟨2, _⟩ => ⟨S8, .f32⟩
  | .hbm, ⟨3, _⟩ => ⟨S4x8, .f32⟩
  | .hbm, ⟨4, _⟩ => ⟨S4, .f32⟩
  | .hbm, ⟨5, _⟩ => ⟨S2x4, .f32⟩
  | .hbm, ⟨6, _⟩ => ⟨S2, .f32⟩
  | .hbm, ⟨7, _⟩ => ⟨S1x2, .f32⟩
  | .hbm, ⟨8, _⟩ => ⟨S1, .f32⟩
  | .hbm, ⟨9, _⟩ => ⟨S6x8, .f32⟩
  | .hbm, ⟨10, _⟩ => ⟨S4194304x8, .f32⟩
  | .hbm, ⟨11, _⟩ => ⟨S1x8, .f32⟩
  | .hbm, ⟨12, _⟩ => ⟨S4194304x8, .f32⟩
  | .hbm, ⟨13, _⟩ => ⟨S4194304x8, .f32⟩
  | .hbm, ⟨14, _⟩ => ⟨S_, .f32⟩
  | .hbm, ⟨15, _⟩ => ⟨S4194304x8, .f32⟩
  | .hbm, ⟨16, _⟩ => ⟨S4194304x8, .f32⟩
  | .hbm, ⟨17, _⟩ => ⟨S8x4, .f32⟩
  | .hbm, ⟨18, _⟩ => ⟨S4194304x4, .f32⟩
  | .hbm, ⟨19, _⟩ => ⟨S1x4, .f32⟩
  | .hbm, ⟨20, _⟩ => ⟨S4194304x4, .f32⟩
  | .hbm, ⟨21, _⟩ => ⟨S4194304x4, .f32⟩
  | .hbm, ⟨22, _⟩ => ⟨S_, .f32⟩
  | .hbm, ⟨23, _⟩ => ⟨S4194304x4, .f32⟩
  | .hbm, ⟨24, _⟩ => ⟨S4194304x4, .f32⟩
  | .hbm, ⟨25, _⟩ => ⟨S4x2, .f32⟩
  | .hbm, ⟨26, _⟩ => ⟨S4194304x2, .f32⟩
  | .hbm, ⟨27, _⟩ => ⟨S1x2, .f32⟩
  | .hbm, ⟨28, _⟩ => ⟨S4194304x2, .f32⟩
  | .hbm, ⟨29, _⟩ => ⟨S4194304x2, .f32⟩
  | .hbm, ⟨30, _⟩ => ⟨S_, .f32⟩
  | .hbm, ⟨31, _⟩ => ⟨S4194304x2, .f32⟩
  | .hbm, ⟨32, _⟩ => ⟨S4194304x2, .f32⟩
  | .hbm, ⟨33, _⟩ => ⟨S2x1, .f32⟩
  | .hbm, ⟨34, _⟩ => ⟨S4194304x1, .f32⟩
  | .hbm, ⟨35, _⟩ => ⟨S1x1, .f32⟩
  | .hbm, ⟨36, _⟩ => ⟨S4194304x1, .f32⟩
  | .hbm, ⟨37, _⟩ => ⟨S4194304x1, .f32⟩
  | .hbm, ⟨38, _⟩ => ⟨S_, .f32⟩
  | .hbm, ⟨39, _⟩ => ⟨S4194304x1, .f32⟩
  | .hbm, ⟨40, _⟩ => ⟨S4194304x1, .f32⟩
  | .hbm, ⟨41, _⟩ => ⟨S4194304x1, .f32⟩
  | .hbm, ⟨42, _⟩ => ⟨S4194304x1, .f32⟩
  | .hbm, ⟨43, _⟩ => ⟨S4194304x1, .i1⟩
  | .hbm, ⟨44, _⟩ => ⟨S4194304x1, .f32⟩
  | .hbm, ⟨45, _⟩ => ⟨S4194304x1, .f32⟩
  | .hbm, ⟨46, _⟩ => ⟨S4194304x1, .f32⟩
  | .hbm, ⟨47, _⟩ => ⟨S4194304x1, .f32⟩
  | .hbm, ⟨48, _⟩ => ⟨S4194304x1, .f32⟩
  | .hbm, ⟨49, _⟩ => ⟨S4194304x1, .f32⟩
  | .hbm, ⟨50, _⟩ => ⟨S4194304x1, .f32⟩
  | .hbm, ⟨51, _⟩ => ⟨S4194304x1, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call3_cst : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_v23 : Ref sig .tc := ⟨.hbm, 51, rfl⟩

abbrev nD : Nat := 1
abbrev τ : Topo := Topo.v7x

variable {F : FTy → Type} [FloatOps F]

class Facts₀ : Prop where
  transposes_S8x6_S6x8_1_0 : S8x6.Transposes [1, 0] S6x8
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  transposes_S4x8_S8x4_1_0 : S4x8.Transposes [1, 0] S8x4
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  transposes_S2x4_S4x2_1_0 : S2x4.Transposes [1, 0] S4x2
  bcast_S2_S1x2_1 : S2.BroadcastsInDim S1x2 (![1] : Fin 1 → Fin S1x2.rank)
  bcast_S1x2_S4194304x2_0_1 : S1x2.BroadcastsInDim S4194304x2 (![0, 1] : Fin 2 → Fin S4194304x2.rank)
  bcast_S_S4194304x2 : S_.BroadcastsInDim S4194304x2 (![] : Fin 0 → Fin S4194304x2.rank)
  transposes_S1x2_S2x1_1_0 : S1x2.Transposes [1, 0] S2x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  dot_S4194304x6_S6x8_S4194304x8_1_0_0_1_n_n_wf : DotDims.WF S4194304x6 S6x8 S4194304x8 [1] [0] [0] [1] [] []
  dot_S4194304x8_S8x4_S4194304x4_1_0_0_1_n_n_wf : DotDims.WF S4194304x8 S8x4 S4194304x4 [1] [0] [0] [1] [] []
  dot_S4194304x4_S4x2_S4194304x2_1_0_0_1_n_n_wf : DotDims.WF S4194304x4 S4x2 S4194304x2 [1] [0] [0] [1] [] []
  dot_S4194304x2_S2x1_S4194304x1_1_0_0_1_n_n_wf : DotDims.WF S4194304x2 S2x1 S4194304x1 [1] [0] [0] [1] [] []

variable [Facts₀]

def dot_S4194304x6_S6x8_S4194304x8_1_0_0_1_n_n : DotDims S4194304x6 S6x8 S4194304x8 where
  lhsContracting := [1]
  rhsContracting := [0]
  lhsNonContracting := [0]
  rhsNonContracting := [1]
  lhsBatch := []
  rhsBatch := []
  wf := dot_S4194304x6_S6x8_S4194304x8_1_0_0_1_n_n_wf
def dot_S4194304x8_S8x4_S4194304x4_1_0_0_1_n_n : DotDims S4194304x8 S8x4 S4194304x4 where
  lhsContracting := [1]
  rhsContracting := [0]
  lhsNonContracting := [0]
  rhsNonContracting := [1]
  lhsBatch := []
  rhsBatch := []
  wf := dot_S4194304x8_S8x4_S4194304x4_1_0_0_1_n_n_wf
def dot_S4194304x4_S4x2_S4194304x2_1_0_0_1_n_n : DotDims S4194304x4 S4x2 S4194304x2 where
  lhsContracting := [1]
  rhsContracting := [0]
  lhsNonContracting := [0]
  rhsNonContracting := [1]
  lhsBatch := []
  rhsBatch := []
  wf := dot_S4194304x4_S4x2_S4194304x2_1_0_0_1_n_n_wf
def dot_S4194304x2_S2x1_S4194304x1_1_0_0_1_n_n : DotDims S4194304x2 S2x1 S4194304x1 where
  lhsContracting := [1]
  rhsContracting := [0]
  lhsNonContracting := [0]
  rhsNonContracting := [1]
  lhsBatch := []
  rhsBatch := []
  wf := dot_S4194304x2_S2x1_S4194304x1_1_0_0_1_n_n_wf

class Facts : Prop extends Facts₀ where

variable [Facts]
-- ==== Proof.Spec.lean ====
/-
  The function both programs compute, row by row.  A row `x : Fin 6 → EReal` goes through four affine
  layers `h ↦ (∑ k, h k · W j k) + b j` (widths 6 → 8 → 4 → 2 → 1), the first three followed by
  `max · 0`, and the last by the softplus in its overflow-safe spelling
  `max z 0 + log (1 + exp (-|z|))`, with `|z| = max z (-z)`.  Nothing here needs the inputs finite: the two
  programs perform the same sums of the same products in the same order of nesting, so the only laws used
  are `z - 0 = z`, `z + 0 = z`, `0 - a = -a` on the extended reals and that `a ≠ a` is false.
-/
import Idealize.ShloMosaic.PureOps.Ideal
import Idealize.ShloMosaic.PureOps.Ideal.Laws
import Idealize.ShloMosaic.Lib.ValueIdx

noncomputable section

namespace Cert.Mlp

open Idealize.ShloMosaic

/-- One affine layer applied to a row `h`: output feature `j` is `(∑ k, h k · W j k) + b j`. -/
def lin {K M : ℕ} (W : Fin M → Fin K → EReal) (b : Fin M → EReal) (h : Fin K → EReal) (j : Fin M) : EReal :=
  (∑ k : Fin K, h k * W j k) + b j

/-- The rectifier on a row, feature by feature. -/
def relu {M : ℕ} (v : Fin M → EReal) (j : Fin M) : EReal := max (v j) 0

/-- The softplus `log (1 + exp z)` in the spelling both programs use: `max z 0 + log (1 + exp (-|z|))`. -/
def softplus (z : EReal) : EReal := max z 0 + Ideal.log1p (Ideal.exp (-(max z (-z))))

/-- The whole network on one row. -/
def net (W1 : Fin 8 → Fin 6 → EReal) (b1 : Fin 8 → EReal) (W7 : Fin 4 → Fin 8 → EReal) (b7 : Fin 4 → EReal)
    (W8 : Fin 2 → Fin 4 → EReal) (b8 : Fin 2 → EReal) (W9 : Fin 1 → Fin 2 → EReal) (b9 : Fin 1 → EReal)
    (x : Fin 6 → EReal) : EReal :=
  softplus (lin W9 b9 (relu (lin W8 b8 (relu (lin W7 b7 (relu (lin W1 b1 x)))))) 0)

/-- A weight matrix stored as a rank-2 array, read as rows of features. -/
abbrev mat {M K : ℕ} (W : (⟨2, ![M, K]⟩ : Shape).Idx → EReal) : Fin M → Fin K → EReal := fun j k => W (ValueIdx.ix2 j k)

/-- A bias stored as a rank-1 array. -/
abbrev vec {M : ℕ} (b : (⟨1, ![M]⟩ : Shape).Idx → EReal) : Fin M → EReal := fun j => b (ValueIdx.ix1 j)

/-- Row `r` of a rank-2 array. -/
abbrev row {N K : ℕ} (x : (⟨2, ![N, K]⟩ : Shape).Idx → EReal) (r : Fin N) : Fin K → EReal := fun k => x (ValueIdx.ix2 r k)

/-- The comparison `a ≠ a` (ordered or unordered spelling) is false on the extended reals, so a select on it
    takes its second branch. -/
theorem select_ne_self (p : CmpFPredicate) (hp : p = .one ∨ p = .une) (a : EReal) {α : Type} (u v : α) :
    Scalar.select (Ideal.cmp p a a) u v = v := by
  rcases hp with rfl | rfl <;> simp [Ideal.cmp, Scalar.select]

/-- The kernel's spelling of the softplus at an element: the guard `z - 0 ≠ z - 0` never fires, and
    `0 - |z - 0| = -|z|`. -/
theorem softplus_sub (z : EReal) :
    Scalar.select (Ideal.cmp .one (z - 0) (z - 0)) (z + 0)
      (max z 0 + Ideal.log1p (Ideal.exp (0 - max (z - 0) (-(z - 0))))) = softplus z := by
  rw [select_ne_self _ (.inl rfl), sub_zero, zero_sub]; rfl

/-- The reference's spelling: the same with a negation in place of the subtraction from zero. -/
theorem softplus_neg (z : EReal) :
    Scalar.select (Ideal.cmp .une (z - 0) (z - 0)) (z + 0)
      (max z 0 + Ideal.log1p (Ideal.exp (-(max (z - 0) (-(z - 0)))))) = softplus z := by
  rw [select_ne_self _ (.inr rfl), sub_zero]; rfl

end Cert.Mlp

end
-- ==== Proof.KernelRow.lean ====
/-
  The kernel's body, read one row of a block at a time.  What the body stores at row `r` of its output block is the
  network of `Spec.lean` applied to row `r` of the input block: each `tpu.matmul` into a zero accumulator against a
  transposed weight matrix is the sum `∑ k, h k · W j k`, each bias reshaped to one row and broadcast down the block
  is `b j`, each `maximumf` against the splat zero is the rectifier, and the tail is the softplus in its
  subtraction-from-zero spelling.
-/
import proofs.«130348_j24970939859195_1_alg».proof.Proof.Gen.KernelIdeal.Skeleton
import proofs.«130348_j24970939859195_1_alg».proof.Proof.Spec
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Cert.Mlp Idealize.ShloMosaic Idealize.ShloMosaic.ValueIdx

/-! ## Layer 1: 6 → 8 -/

theorem lhs1_0 (i : S8192x8.Idx) (q : dot_S8192x6_S6x8_S8192x8_1_0_0_1_n_n.contr.Idx) :
    (dot_S8192x6_S6x8_S8192x8_1_0_0_1_n_n.lhsIdx i q 0).val = (i 0).val := by
  unfold DotDims.lhsIdx
  rw [dif_neg (show ¬(0 : Fin S8192x6.rank) ∈ dot_S8192x6_S6x8_S8192x8_1_0_0_1_n_n.lhsBatch by decide), dif_pos (show (0 : Fin S8192x6.rank) ∈ dot_S8192x6_S6x8_S8192x8_1_0_0_1_n_n.lhsNonContracting by decide)]
  rfl
theorem lhs1_1 (i : S8192x8.Idx) (q : dot_S8192x6_S6x8_S8192x8_1_0_0_1_n_n.contr.Idx) :
    (dot_S8192x6_S6x8_S8192x8_1_0_0_1_n_n.lhsIdx i q 1).val = (q ⟨0, by decide⟩).val :=
  dot_S8192x6_S6x8_S8192x8_1_0_0_1_n_n.lhsIdx_val_of_single rfl i q
theorem rhs1_0 (i : S8192x8.Idx) (q : dot_S8192x6_S6x8_S8192x8_1_0_0_1_n_n.contr.Idx) :
    (dot_S8192x6_S6x8_S8192x8_1_0_0_1_n_n.rhsIdx i q 0).val = (q ⟨0, by decide⟩).val :=
  dot_S8192x6_S6x8_S8192x8_1_0_0_1_n_n.rhsIdx_val_of_single rfl i q
theorem rhs1_1 (i : S8192x8.Idx) (q : dot_S8192x6_S6x8_S8192x8_1_0_0_1_n_n.contr.Idx) :
    (dot_S8192x6_S6x8_S8192x8_1_0_0_1_n_n.rhsIdx i q 1).val = (i 1).val := by
  unfold DotDims.rhsIdx
  rw [dif_neg (show ¬(1 : Fin S6x8.rank) ∈ dot_S8192x6_S6x8_S8192x8_1_0_0_1_n_n.rhsBatch by decide), dif_pos (show (1 : Fin S6x8.rank) ∈ dot_S8192x6_S6x8_S8192x8_1_0_0_1_n_n.rhsNonContracting by decide)]
  rfl

/-- The first product at an entry: row `r` of the block against column `j` of the transposed weights. -/
theorem mm1_apply (h : FVec Ideal S8192x6 .f32) (y : FVec Ideal S6x8 .f32) (r : Fin 8192) (j : Fin 8) :
    matmul (F := Ideal) dot_S8192x6_S6x8_S8192x8_1_0_0_1_n_n none h y (constant S8192x8 .f32 0x00000000#32) (ix2 r j)
      = ∑ k : Fin 6, h (ix2 r k) * y (ix2 k j) := by
  simp only [matmul]
  rw [Ideal.matmul_constant_zero_apply, ← Equiv.sum_comp (ValueIdx.contrEquiv1 dot_S8192x6_S6x8_S8192x8_1_0_0_1_n_n 6 rfl rfl).symm]
  refine Finset.sum_congr rfl fun k _ => ?_
  have hk := ValueIdx.contrEquiv1_symm_val dot_S8192x6_S6x8_S8192x8_1_0_0_1_n_n 6 rfl rfl k
  have el : dot_S8192x6_S6x8_S8192x8_1_0_0_1_n_n.lhsIdx (ix2 r j) ((ValueIdx.contrEquiv1 dot_S8192x6_S6x8_S8192x8_1_0_0_1_n_n 6 rfl rfl).symm k) = ix2 r k := funext fun a => Fin.ext (by
    match a with
    | ⟨0, _⟩ => exact lhs1_0 _ _
    | ⟨1, _⟩ => exact (lhs1_1 _ _).trans hk)
  have er : dot_S8192x6_S6x8_S8192x8_1_0_0_1_n_n.rhsIdx (ix2 r j) ((ValueIdx.contrEquiv1 dot_S8192x6_S6x8_S8192x8_1_0_0_1_n_n 6 rfl rfl).symm k) = ix2 k j := funext fun a => Fin.ext (by
    match a with
    | ⟨0, _⟩ => exact (rhs1_0 _ _).trans hk
    | ⟨1, _⟩ => exact rhs1_1 _ _)
  rw [el, er]

/-- The first affine layer at an entry of the block. -/
theorem a1_apply (h : FVec Ideal S8192x6 .f32) (W : FVec Ideal S8x6 .f32) (b : FVec Ideal S8 .f32) (r : Fin 8192) (j : Fin 8) :
    addf (matmul (F := Ideal) dot_S8192x6_S6x8_S8192x8_1_0_0_1_n_n none h (transpose S6x8 [1, 0] W transposes_S8x6_p1_0_S6x8) (constant S8192x8 .f32 0x00000000#32))
        (broadcastTo S8192x8 (shapeCast S1x8 b shapeCasts_S8_S1x8) broadcasts_S1x8_S8192x8) (ix2 r j)
      = lin (mat W) (vec b) (row h r) j := by
  rw [addf_apply, mm1_apply]
  refine congrArg₂ (· + ·) (Finset.sum_congr rfl fun k _ => congrArg (h (ix2 r k) * ·) ?_) ?_
  · exact transpose_apply [1, 0] W transposes_S8x6_p1_0_S6x8 (ix2 k j) (ix2 j k) (fun a => match a with
      | ⟨0, _⟩ => rfl
      | ⟨1, _⟩ => rfl)
  · rw [broadcastTo_apply _ broadcasts_S1x8_S8192x8 (ix2 r j) (ix2 (0 : Fin 1) j) (fun a => match a with
      | ⟨0, _⟩ => by show (0 : ℕ) = if (1 : ℕ) = 1 then 0 else r.val; rw [if_pos rfl]
      | ⟨1, _⟩ => by show j.val = if (8 : ℕ) = 1 then 0 else j.val; rw [if_neg (by decide)])]
    exact shapeCast_apply b shapeCasts_S8_S1x8 (ix2 (0 : Fin 1) j) (ix1 j) (by
      rw [Shape.rowMajor_val_one, Shape.rowMajor_val_two]; show j.val = 0 * 8 + j.val; omega)

/-- The rectified first layer, as a row. -/
theorem h1_row (h : FVec Ideal S8192x6 .f32) (W : FVec Ideal S8x6 .f32) (b : FVec Ideal S8 .f32) (r : Fin 8192) :
    row (maximumf (addf (matmul (F := Ideal) dot_S8192x6_S6x8_S8192x8_1_0_0_1_n_n none h (transpose S6x8 [1, 0] W transposes_S8x6_p1_0_S6x8) (constant S8192x8 .f32 0x00000000#32))
        (broadcastTo S8192x8 (shapeCast S1x8 b shapeCasts_S8_S1x8) broadcasts_S1x8_S8192x8)) (broadcast S8192x8 (Scalar.ofBits .f32 0x00000000#32))) r
      = relu (lin (mat W) (vec b) (row h r)) := by
  funext j
  show max (addf _ _ (ix2 r j)) (Ideal.ofBits .f32 0x00000000#32) = max _ 0
  rw [a1_apply, Ideal.ofBits_zero_f32]

/-! ## Layer 2: 8 → 4 -/

theorem lhs2_0 (i : S8192x4.Idx) (q : dot_S8192x8_S8x4_S8192x4_1_0_0_1_n_n.contr.Idx) :
    (dot_S8192x8_S8x4_S8192x4_1_0_0_1_n_n.lhsIdx i q 0).val = (i 0).val := by
  unfold DotDims.lhsIdx
  rw [dif_neg (show ¬(0 : Fin S8192x8.rank) ∈ dot_S8192x8_S8x4_S8192x4_1_0_0_1_n_n.lhsBatch by decide), dif_pos (show (0 : Fin S8192x8.rank) ∈ dot_S8192x8_S8x4_S8192x4_1_0_0_1_n_n.lhsNonContracting by decide)]
  rfl
theorem lhs2_1 (i : S8192x4.Idx) (q : dot_S8192x8_S8x4_S8192x4_1_0_0_1_n_n.contr.Idx) :
    (dot_S8192x8_S8x4_S8192x4_1_0_0_1_n_n.lhsIdx i q 1).val = (q ⟨0, by decide⟩).val :=
  dot_S8192x8_S8x4_S8192x4_1_0_0_1_n_n.lhsIdx_val_of_single rfl i q
theorem rhs2_0 (i : S8192x4.Idx) (q : dot_S8192x8_S8x4_S8192x4_1_0_0_1_n_n.contr.Idx) :
    (dot_S8192x8_S8x4_S8192x4_1_0_0_1_n_n.rhsIdx i q 0).val = (q ⟨0, by decide⟩).val :=
  dot_S8192x8_S8x4_S8192x4_1_0_0_1_n_n.rhsIdx_val_of_single rfl i q
theorem rhs2_1 (i : S8192x4.Idx) (q : dot_S8192x8_S8x4_S8192x4_1_0_0_1_n_n.contr.Idx) :
    (dot_S8192x8_S8x4_S8192x4_1_0_0_1_n_n.rhsIdx i q 1).val = (i 1).val := by
  unfold DotDims.rhsIdx
  rw [dif_neg (show ¬(1 : Fin S8x4.rank) ∈ dot_S8192x8_S8x4_S8192x4_1_0_0_1_n_n.rhsBatch by decide), dif_pos (show (1 : Fin S8x4.rank) ∈ dot_S8192x8_S8x4_S8192x4_1_0_0_1_n_n.rhsNonContracting by decide)]
  rfl

/-- The second product at an entry. -/
theorem mm2_apply (h : FVec Ideal S8192x8 .f32) (y : FVec Ideal S8x4 .f32) (r : Fin 8192) (j : Fin 4) :
    matmul (F := Ideal) dot_S8192x8_S8x4_S8192x4_1_0_0_1_n_n none h y (constant S8192x4 .f32 0x00000000#32) (ix2 r j)
      = ∑ k : Fin 8, h (ix2 r k) * y (ix2 k j) := by
  simp only [matmul]
  rw [Ideal.matmul_constant_zero_apply, ← Equiv.sum_comp (ValueIdx.contrEquiv1 dot_S8192x8_S8x4_S8192x4_1_0_0_1_n_n 8 rfl rfl).symm]
  refine Finset.sum_congr rfl fun k _ => ?_
  have hk := ValueIdx.contrEquiv1_symm_val dot_S8192x8_S8x4_S8192x4_1_0_0_1_n_n 8 rfl rfl k
  have el : dot_S8192x8_S8x4_S8192x4_1_0_0_1_n_n.lhsIdx (ix2 r j) ((ValueIdx.contrEquiv1 dot_S8192x8_S8x4_S8192x4_1_0_0_1_n_n 8 rfl rfl).symm k) = ix2 r k := funext fun a => Fin.ext (by
    match a with
    | ⟨0, _⟩ => exact lhs2_0 _ _
    | ⟨1, _⟩ => exact (lhs2_1 _ _).trans hk)
  have er : dot_S8192x8_S8x4_S8192x4_1_0_0_1_n_n.rhsIdx (ix2 r j) ((ValueIdx.contrEquiv1 dot_S8192x8_S8x4_S8192x4_1_0_0_1_n_n 8 rfl rfl).symm k) = ix2 k j := funext fun a => Fin.ext (by
    match a with
    | ⟨0, _⟩ => exact (rhs2_0 _ _).trans hk
    | ⟨1, _⟩ => exact rhs2_1 _ _)
  rw [el, er]

/-- The second affine layer at an entry of the block. -/
theorem a2_apply (h : FVec Ideal S8192x8 .f32) (W : FVec Ideal S4x8 .f32) (b : FVec Ideal S4 .f32) (r : Fin 8192) (j : Fin 4) :
    addf (matmul (F := Ideal) dot_S8192x8_S8x4_S8192x4_1_0_0_1_n_n none h (transpose S8x4 [1, 0] W transposes_S4x8_p1_0_S8x4) (constant S8192x4 .f32 0x00000000#32))
        (broadcastTo S8192x4 (shapeCast S1x4 b shapeCasts_S4_S1x4) broadcasts_S1x4_S8192x4) (ix2 r j)
      = lin (mat W) (vec b) (row h r) j := by
  rw [addf_apply, mm2_apply]
  refine congrArg₂ (· + ·) (Finset.sum_congr rfl fun k _ => congrArg (h (ix2 r k) * ·) ?_) ?_
  · exact transpose_apply [1, 0] W transposes_S4x8_p1_0_S8x4 (ix2 k j) (ix2 j k) (fun a => match a with
      | ⟨0, _⟩ => rfl
      | ⟨1, _⟩ => rfl)
  · rw [broadcastTo_apply _ broadcasts_S1x4_S8192x4 (ix2 r j) (ix2 (0 : Fin 1) j) (fun a => match a with
      | ⟨0, _⟩ => by show (0 : ℕ) = if (1 : ℕ) = 1 then 0 else r.val; rw [if_pos rfl]
      | ⟨1, _⟩ => by show j.val = if (4 : ℕ) = 1 then 0 else j.val; rw [if_neg (by decide)])]
    exact shapeCast_apply b shapeCasts_S4_S1x4 (ix2 (0 : Fin 1) j) (ix1 j) (by
      rw [Shape.rowMajor_val_one, Shape.rowMajor_val_two]; show j.val = 0 * 4 + j.val; omega)

/-- The rectified second layer, as a row. -/
theorem h2_row (h : FVec Ideal S8192x8 .f32) (W : FVec Ideal S4x8 .f32) (b : FVec Ideal S4 .f32) (r : Fin 8192) :
    row (maximumf (addf (matmul (F := Ideal) dot_S8192x8_S8x4_S8192x4_1_0_0_1_n_n none h (transpose S8x4 [1, 0] W transposes_S4x8_p1_0_S8x4) (constant S8192x4 .f32 0x00000000#32))
        (broadcastTo S8192x4 (shapeCast S1x4 b shapeCasts_S4_S1x4) broadcasts_S1x4_S8192x4)) (broadcast S8192x4 (Scalar.ofBits .f32 0x00000000#32))) r
      = relu (lin (mat W) (vec b) (row h r)) := by
  funext j
  show max (addf _ _ (ix2 r j)) (Ideal.ofBits .f32 0x00000000#32) = max _ 0
  rw [a2_apply, Ideal.ofBits_zero_f32]

/-! ## Layer 3: 4 → 2 -/

theorem lhs3_0 (i : S8192x2.Idx) (q : dot_S8192x4_S4x2_S8192x2_1_0_0_1_n_n.contr.Idx) :
    (dot_S8192x4_S4x2_S8192x2_1_0_0_1_n_n.lhsIdx i q 0).val = (i 0).val := by
  unfold DotDims.lhsIdx
  rw [dif_neg (show ¬(0 : Fin S8192x4.rank) ∈ dot_S8192x4_S4x2_S8192x2_1_0_0_1_n_n.lhsBatch by decide), dif_pos (show (0 : Fin S8192x4.rank) ∈ dot_S8192x4_S4x2_S8192x2_1_0_0_1_n_n.lhsNonContracting by decide)]
  rfl
theorem lhs3_1 (i : S8192x2.Idx) (q : dot_S8192x4_S4x2_S8192x2_1_0_0_1_n_n.contr.Idx) :
    (dot_S8192x4_S4x2_S8192x2_1_0_0_1_n_n.lhsIdx i q 1).val = (q ⟨0, by decide⟩).val :=
  dot_S8192x4_S4x2_S8192x2_1_0_0_1_n_n.lhsIdx_val_of_single rfl i q
theorem rhs3_0 (i : S8192x2.Idx) (q : dot_S8192x4_S4x2_S8192x2_1_0_0_1_n_n.contr.Idx) :
    (dot_S8192x4_S4x2_S8192x2_1_0_0_1_n_n.rhsIdx i q 0).val = (q ⟨0, by decide⟩).val :=
  dot_S8192x4_S4x2_S8192x2_1_0_0_1_n_n.rhsIdx_val_of_single rfl i q
theorem rhs3_1 (i : S8192x2.Idx) (q : dot_S8192x4_S4x2_S8192x2_1_0_0_1_n_n.contr.Idx) :
    (dot_S8192x4_S4x2_S8192x2_1_0_0_1_n_n.rhsIdx i q 1).val = (i 1).val := by
  unfold DotDims.rhsIdx
  rw [dif_neg (show ¬(1 : Fin S4x2.rank) ∈ dot_S8192x4_S4x2_S8192x2_1_0_0_1_n_n.rhsBatch by decide), dif_pos (show (1 : Fin S4x2.rank) ∈ dot_S8192x4_S4x2_S8192x2_1_0_0_1_n_n.rhsNonContracting by decide)]
  rfl

/-- The third product at an entry. -/
theorem mm3_apply (h : FVec Ideal S8192x4 .f32) (y : FVec Ideal S4x2 .f32) (r : Fin 8192) (j : Fin 2) :
    matmul (F := Ideal) dot_S8192x4_S4x2_S8192x2_1_0_0_1_n_n none h y (constant S8192x2 .f32 0x00000000#32) (ix2 r j)
      = ∑ k : Fin 4, h (ix2 r k) * y (ix2 k j) := by
  simp only [matmul]
  rw [Ideal.matmul_constant_zero_apply, ← Equiv.sum_comp (ValueIdx.contrEquiv1 dot_S8192x4_S4x2_S8192x2_1_0_0_1_n_n 4 rfl rfl).symm]
  refine Finset.sum_congr rfl fun k _ => ?_
  have hk := ValueIdx.contrEquiv1_symm_val dot_S8192x4_S4x2_S8192x2_1_0_0_1_n_n 4 rfl rfl k
  have el : dot_S8192x4_S4x2_S8192x2_1_0_0_1_n_n.lhsIdx (ix2 r j) ((ValueIdx.contrEquiv1 dot_S8192x4_S4x2_S8192x2_1_0_0_1_n_n 4 rfl rfl).symm k) = ix2 r k := funext fun a => Fin.ext (by
    match a with
    | ⟨0, _⟩ => exact lhs3_0 _ _
    | ⟨1, _⟩ => exact (lhs3_1 _ _).trans hk)
  have er : dot_S8192x4_S4x2_S8192x2_1_0_0_1_n_n.rhsIdx (ix2 r j) ((ValueIdx.contrEquiv1 dot_S8192x4_S4x2_S8192x2_1_0_0_1_n_n 4 rfl rfl).symm k) = ix2 k j := funext fun a => Fin.ext (by
    match a with
    | ⟨0, _⟩ => exact (rhs3_0 _ _).trans hk
    | ⟨1, _⟩ => exact rhs3_1 _ _)
  rw [el, er]

/-- The third affine layer at an entry of the block. -/
theorem a3_apply (h : FVec Ideal S8192x4 .f32) (W : FVec Ideal S2x4 .f32) (b : FVec Ideal S2 .f32) (r : Fin 8192) (j : Fin 2) :
    addf (matmul (F := Ideal) dot_S8192x4_S4x2_S8192x2_1_0_0_1_n_n none h (transpose S4x2 [1, 0] W transposes_S2x4_p1_0_S4x2) (constant S8192x2 .f32 0x00000000#32))
        (broadcastTo S8192x2 (shapeCast S1x2 b shapeCasts_S2_S1x2) broadcasts_S1x2_S8192x2) (ix2 r j)
      = lin (mat W) (vec b) (row h r) j := by
  rw [addf_apply, mm3_apply]
  refine congrArg₂ (· + ·) (Finset.sum_congr rfl fun k _ => congrArg (h (ix2 r k) * ·) ?_) ?_
  · exact transpose_apply [1, 0] W transposes_S2x4_p1_0_S4x2 (ix2 k j) (ix2 j k) (fun a => match a with
      | ⟨0, _⟩ => rfl
      | ⟨1, _⟩ => rfl)
  · rw [broadcastTo_apply _ broadcasts_S1x2_S8192x2 (ix2 r j) (ix2 (0 : Fin 1) j) (fun a => match a with
      | ⟨0, _⟩ => by show (0 : ℕ) = if (1 : ℕ) = 1 then 0 else r.val; rw [if_pos rfl]
      | ⟨1, _⟩ => by show j.val = if (2 : ℕ) = 1 then 0 else j.val; rw [if_neg (by decide)])]
    exact shapeCast_apply b shapeCasts_S2_S1x2 (ix2 (0 : Fin 1) j) (ix1 j) (by
      rw [Shape.rowMajor_val_one, Shape.rowMajor_val_two]; show j.val = 0 * 2 + j.val; omega)

/-- The rectified third layer, as a row. -/
theorem h3_row (h : FVec Ideal S8192x4 .f32) (W : FVec Ideal S2x4 .f32) (b : FVec Ideal S2 .f32) (r : Fin 8192) :
    row (maximumf (addf (matmul (F := Ideal) dot_S8192x4_S4x2_S8192x2_1_0_0_1_n_n none h (transpose S4x2 [1, 0] W transposes_S2x4_p1_0_S4x2) (constant S8192x2 .f32 0x00000000#32))
        (broadcastTo S8192x2 (shapeCast S1x2 b shapeCasts_S2_S1x2) broadcasts_S1x2_S8192x2)) (broadcast S8192x2 (Scalar.ofBits .f32 0x00000000#32))) r
      = relu (lin (mat W) (vec b) (row h r)) := by
  funext j
  show max (addf _ _ (ix2 r j)) (Ideal.ofBits .f32 0x00000000#32) = max _ 0
  rw [a3_apply, Ideal.ofBits_zero_f32]

/-! ## Layer 4: 2 → 1 -/

theorem lhs4_0 (i : S8192x1.Idx) (q : dot_S8192x2_S2x1_S8192x1_1_0_0_1_n_n.contr.Idx) :
    (dot_S8192x2_S2x1_S8192x1_1_0_0_1_n_n.lhsIdx i q 0).val = (i 0).val := by
  unfold DotDims.lhsIdx
  rw [dif_neg (show ¬(0 : Fin S8192x2.rank) ∈ dot_S8192x2_S2x1_S8192x1_1_0_0_1_n_n.lhsBatch by decide), dif_pos (show (0 : Fin S8192x2.rank) ∈ dot_S8192x2_S2x1_S8192x1_1_0_0_1_n_n.lhsNonContracting by decide)]
  rfl
theorem lhs4_1 (i : S8192x1.Idx) (q : dot_S8192x2_S2x1_S8192x1_1_0_0_1_n_n.contr.Idx) :
    (dot_S8192x2_S2x1_S8192x1_1_0_0_1_n_n.lhsIdx i q 1).val = (q ⟨0, by decide⟩).val :=
  dot_S8192x2_S2x1_S8192x1_1_0_0_1_n_n.lhsIdx_val_of_single rfl i q
theorem rhs4_0 (i : S8192x1.Idx) (q : dot_S8192x2_S2x1_S8192x1_1_0_0_1_n_n.contr.Idx) :
    (dot_S8192x2_S2x1_S8192x1_1_0_0_1_n_n.rhsIdx i q 0).val = (q ⟨0, by decide⟩).val :=
  dot_S8192x2_S2x1_S8192x1_1_0_0_1_n_n.rhsIdx_val_of_single rfl i q
theorem rhs4_1 (i : S8192x1.Idx) (q : dot_S8192x2_S2x1_S8192x1_1_0_0_1_n_n.contr.Idx) :
    (dot_S8192x2_S2x1_S8192x1_1_0_0_1_n_n.rhsIdx i q 1).val = (i 1).val := by
  unfold DotDims.rhsIdx
  rw [dif_neg (show ¬(1 : Fin S2x1.rank) ∈ dot_S8192x2_S2x1_S8192x1_1_0_0_1_n_n.rhsBatch by decide), dif_pos (show (1 : Fin S2x1.rank) ∈ dot_S8192x2_S2x1_S8192x1_1_0_0_1_n_n.rhsNonContracting by decide)]
  rfl

/-- The fourth product at an entry. -/
theorem mm4_apply (h : FVec Ideal S8192x2 .f32) (y : FVec Ideal S2x1 .f32) (r : Fin 8192) (j : Fin 1) :
    matmul (F := Ideal) dot_S8192x2_S2x1_S8192x1_1_0_0_1_n_n none h y (constant S8192x1 .f32 0x00000000#32) (ix2 r j)
      = ∑ k : Fin 2, h (ix2 r k) * y (ix2 k j) := by
  simp only [matmul]
  rw [Ideal.matmul_constant_zero_apply, ← Equiv.sum_comp (ValueIdx.contrEquiv1 dot_S8192x2_S2x1_S8192x1_1_0_0_1_n_n 2 rfl rfl).symm]
  refine Finset.sum_congr rfl fun k _ => ?_
  have hk := ValueIdx.contrEquiv1_symm_val dot_S8192x2_S2x1_S8192x1_1_0_0_1_n_n 2 rfl rfl k
  have el : dot_S8192x2_S2x1_S8192x1_1_0_0_1_n_n.lhsIdx (ix2 r j) ((ValueIdx.contrEquiv1 dot_S8192x2_S2x1_S8192x1_1_0_0_1_n_n 2 rfl rfl).symm k) = ix2 r k := funext fun a => Fin.ext (by
    match a with
    | ⟨0, _⟩ => exact lhs4_0 _ _
    | ⟨1, _⟩ => exact (lhs4_1 _ _).trans hk)
  have er : dot_S8192x2_S2x1_S8192x1_1_0_0_1_n_n.rhsIdx (ix2 r j) ((ValueIdx.contrEquiv1 dot_S8192x2_S2x1_S8192x1_1_0_0_1_n_n 2 rfl rfl).symm k) = ix2 k j := funext fun a => Fin.ext (by
    match a with
    | ⟨0, _⟩ => exact (rhs4_0 _ _).trans hk
    | ⟨1, _⟩ => exact rhs4_1 _ _)
  rw [el, er]

/-- The fourth affine layer at an entry of the block (one output feature). -/
theorem a4_apply (h : FVec Ideal S8192x2 .f32) (W : FVec Ideal S1x2 .f32) (b : FVec Ideal S1 .f32) (r : Fin 8192) (j : Fin 1) :
    addf (matmul (F := Ideal) dot_S8192x2_S2x1_S8192x1_1_0_0_1_n_n none h (transpose S2x1 [1, 0] W transposes_S1x2_p1_0_S2x1) (constant S8192x1 .f32 0x00000000#32))
        (broadcastTo S8192x1 (shapeCast S1x1 b shapeCasts_S1_S1x1) broadcasts_S1x1_S8192x1) (ix2 r j)
      = lin (mat W) (vec b) (row h r) j := by
  have hj : j.val = 0 := by have := j.isLt; omega
  rw [addf_apply, mm4_apply]
  refine congrArg₂ (· + ·) (Finset.sum_congr rfl fun k _ => congrArg (h (ix2 r k) * ·) ?_) ?_
  · exact transpose_apply [1, 0] W transposes_S1x2_p1_0_S2x1 (ix2 k j) (ix2 j k) (fun a => match a with
      | ⟨0, _⟩ => rfl
      | ⟨1, _⟩ => rfl)
  · rw [broadcastTo_apply _ broadcasts_S1x1_S8192x1 (ix2 r j) (ix2 (0 : Fin 1) j) (fun a => match a with
      | ⟨0, _⟩ => by show (0 : ℕ) = if (1 : ℕ) = 1 then 0 else r.val; rw [if_pos rfl]
      | ⟨1, _⟩ => by show j.val = if (1 : ℕ) = 1 then 0 else j.val; rw [if_pos rfl]; exact hj)]
    exact shapeCast_apply b shapeCasts_S1_S1x1 (ix2 (0 : Fin 1) j) (ix1 j) (by
      rw [Shape.rowMajor_val_one, Shape.rowMajor_val_two]; show j.val = 0 * 1 + j.val; omega)

/-! ## The body's stored value at a row -/

/-- The last affine layer's value (what the softplus is applied to) at row `r` of the block. -/
theorem z_apply (x0 : FVec Ideal S8192x6 .f32) (x1 : FVec Ideal S8x6 .f32) (x2 : FVec Ideal S8 .f32) (x3 : FVec Ideal S4x8 .f32)
    (x4 : FVec Ideal S4 .f32) (x5 : FVec Ideal S2x4 .f32) (x6 : FVec Ideal S2 .f32) (x7 : FVec Ideal S1x2 .f32) (x8 : FVec Ideal S1 .f32)
    (r : Fin 8192) (j : Fin 1) :
    k0_pay2 (F := Ideal) x0 x1 x2 x3 x4 x5 x6 x7 x8 (ix2 r j)
      = lin (mat x7) (vec x8)
          (relu (lin (mat x5) (vec x6) (relu (lin (mat x3) (vec x4) (relu (lin (mat x1) (vec x2) (row x0 r))))))) j := by
  unfold k0_pay2
  refine (a4_apply _ x7 x8 r j).trans ?_
  rw [h3_row, h2_row, h1_row]

/-- WHAT THE BODY STORES at row `r` of its output block: the network of row `r` of its input block. -/
theorem pay_apply (x0 : FVec Ideal S8192x6 .f32) (x1 : FVec Ideal S8x6 .f32) (x2 : FVec Ideal S8 .f32) (x3 : FVec Ideal S4x8 .f32)
    (x4 : FVec Ideal S4 .f32) (x5 : FVec Ideal S2x4 .f32) (x6 : FVec Ideal S2 .f32) (x7 : FVec Ideal S1x2 .f32) (x8 : FVec Ideal S1 .f32)
    (r : Fin 8192) (q : Fin 1) :
    k0_pay1 (F := Ideal) (k0_pay2 x0 x1 x2 x3 x4 x5 x6 x7 x8) (Scalar.ofBits .f32 0x00000000#32) (k0_pay3 x0 x1 x2 x3 x4 x5 x6 x7 x8) (ix2 r q)
      = net (mat x1) (vec x2) (mat x3) (vec x4) (mat x5) (vec x6) (mat x7) (vec x8) (row x0 r) := by
  have hz := z_apply x0 x1 x2 x3 x4 x5 x6 x7 x8 r q
  unfold k0_pay1 k0_pay3
  generalize k0_pay2 (F := Ideal) x0 x1 x2 x3 x4 x5 x6 x7 x8 = Z at hz ⊢
  show Scalar.select (Ideal.cmp .one (Z (ix2 r q) - Ideal.ofBits .f32 0x00000000#32) (Z (ix2 r q) - Ideal.ofBits .f32 0x00000000#32))
      (Z (ix2 r q) + Ideal.ofBits .f32 0x00000000#32)
      (max (Z (ix2 r q)) (Ideal.ofBits .f32 0x00000000#32) + Ideal.log1p (Ideal.exp (Ideal.ofBits .f32 0x00000000#32
        - max (Z (ix2 r q) - Ideal.ofBits .f32 0x00000000#32) (-(Z (ix2 r q) - Ideal.ofBits .f32 0x00000000#32))))) = _
  rw [Ideal.ofBits_zero_f32, hz]
  have hq : q = 0 := Fin.ext (by have := q.isLt; omega)
  subst hq
  exact softplus_sub _

end Cert.KernelIdeal.RowValue

end
-- ==== Proof.KernelArray.lean ====
/-
  From blocks to the array.  Grid point `t` reads rows `8192·t … 8192·t + 8191` of the input (all six columns) and the
  eight small parameter arrays whole, and writes rows `8192·t … 8192·t + 8191` of the one-column result; so what it
  writes back is block `t` of ONE function of the argument arrays — the network of `Spec.lean` applied to each row —
  and the 512 blocks cover the result array.
-/
import proofs.«130348_j24970939859195_1_alg».proof.Proof.Gen.KernelIdeal.Value
import proofs.«130348_j24970939859195_1_alg».proof.Proof.KernelRow

noncomputable section

namespace Cert.KernelIdeal.ArrValue

open Cert.KernelIdeal Cert.KernelIdeal.Gen Cert.KernelIdeal.RowValue Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as one function of the argument arrays: row `i 0` of the input through the network. -/
def G (a0 : FVec Ideal S4194304x6 .f32) (a1 : FVec Ideal S8x6 .f32) (a2 : FVec Ideal S8 .f32) (a3 : FVec Ideal S4x8 .f32)
    (a4 : FVec Ideal S4 .f32) (a5 : FVec Ideal S2x4 .f32) (a6 : FVec Ideal S2 .f32) (a7 : FVec Ideal S1x2 .f32) (a8 : FVec Ideal S1 .f32) :
    FVec Ideal S4194304x1 .f32 :=
  fun i => net (mat a1) (vec a2) (mat a3) (vec a4) (mat a5) (vec a6) (mat a7) (vec a8) (row (N := 4194304) (K := 6) a0 (i 0))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 512 grid points: the input's and the result's row blocks move together,
    every other block index is zero. -/
theorem idx_facts : ∀ t : Fin cfg0.N,
    win0_0.index t (0 : Fin 2) = win0_9.index t (0 : Fin 2) ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The input windows' blocks, at their literal types -/

abbrev blk0 (c : Dev nD) (t : Fin cfg0.N) : FVec Ideal S8192x6 .f32 := iblk m c 0 t
abbrev blk1 (c : Dev nD) (t : Fin cfg0.N) : FVec Ideal S8x6 .f32 := iblk m c 1 t
abbrev blk2 (c : Dev nD) (t : Fin cfg0.N) : FVec Ideal S8 .f32 := iblk m c 2 t
abbrev blk3 (c : Dev nD) (t : Fin cfg0.N) : FVec Ideal S4x8 .f32 := iblk m c 3 t
abbrev blk4 (c : Dev nD) (t : Fin cfg0.N) : FVec Ideal S4 .f32 := iblk m c 4 t
abbrev blk5 (c : Dev nD) (t : Fin cfg0.N) : FVec Ideal S2x4 .f32 := iblk m c 5 t
abbrev blk6 (c : Dev nD) (t : Fin cfg0.N) : FVec Ideal S2 .f32 := iblk m c 6 t
abbrev blk7 (c : Dev nD) (t : Fin cfg0.N) : FVec Ideal S1x2 .f32 := iblk m c 7 t
abbrev blk8 (c : Dev nD) (t : Fin cfg0.N) : FVec Ideal S1 .f32 := iblk m c 8 t

abbrev arr0 (c : Dev nD) : FVec Ideal S4194304x6 .f32 := V m c main_arg0
abbrev arr1 (c : Dev nD) : FVec Ideal S8x6 .f32 := V m c main_arg1
abbrev arr2 (c : Dev nD) : FVec Ideal S8 .f32 := V m c main_arg2
abbrev arr3 (c : Dev nD) : FVec Ideal S4x8 .f32 := V m c main_arg3
abbrev arr4 (c : Dev nD) : FVec Ideal S4 .f32 := V m c main_arg4
abbrev arr5 (c : Dev nD) : FVec Ideal S2x4 .f32 := V m c main_arg5
abbrev arr6 (c : Dev nD) : FVec Ideal S2 .f32 := V m c main_arg6
abbrev arr7 (c : Dev nD) : FVec Ideal S1x2 .f32 := V m c main_arg7
abbrev arr8 (c : Dev nD) : FVec Ideal S1 .f32 := V m c main_arg8

/-- A parameter window's block is its whole array, at every point. -/
theorem blk1_eq (c : Dev nD) (t : Fin cfg0.N) : blk1 m c t = arr1 m c := by
  funext y
  show V m c main_arg1 (((cfg0.win 1).blk t).view.emb y) = V m c main_arg1 y
  refine congrArg _ (funext fun a => Fin.ext ?_)
  obtain ⟨-, -, -, -, e0, e1, -⟩ := idx_facts t
  match a with
  | ⟨0, _⟩ => show win0_1.index t (0 : Fin 2) * 8 + 1 * (y 0).val = (y 0).val; omega
  | ⟨1, _⟩ => show win0_1.index t (1 : Fin 2) * 6 + 1 * (y 1).val = (y 1).val; omega

theorem blk2_eq (c : Dev nD) (t : Fin cfg0.N) : blk2 m c t = arr2 m c := by
  funext y
  show V m c main_arg2 (((cfg0.win 2).blk t).view.emb y) = V m c main_arg2 y
  refine congrArg _ (funext fun a => Fin.ext ?_)
  obtain ⟨-, -, -, -, -, -, e0, -⟩ := idx_facts t
  match a with
  | ⟨0, _⟩ => show win0_2.index t (0 : Fin 1) * 8 + 1 * (y 0).val = (y 0).val; omega

theorem blk3_eq (c : Dev nD) (t : Fin cfg0.N) : blk3 m c t = arr3 m c := by
  funext y
  show V m c main_arg3 (((cfg0.win 3).blk t).view.emb y) = V m c main_arg3 y
  refine congrArg _ (funext fun a => Fin.ext ?_)
  obtain ⟨-, -, -, -, -, -, -, e0, e1, -⟩ := idx_facts t
  match a with
  | ⟨0, _⟩ => show win0_3.index t (0 : Fin 2) * 4 + 1 * (y 0).val = (y 0).val; omega
  | ⟨1, _⟩ => show win0_3.index t (1 : Fin 2) * 8 + 1 * (y 1).val = (y 1).val; omega

theorem blk4_eq (c : Dev nD) (t : Fin cfg0.N) : blk4 m c t = arr4 m c := by
  funext y
  show V m c main_arg4 (((cfg0.win 4).blk t).view.emb y) = V m c main_arg4 y
  refine congrArg _ (funext fun a => Fin.ext ?_)
  obtain ⟨-, -, -, -, -, -, -, -, -, e0, -⟩ := idx_facts t
  match a with
  | ⟨0, _⟩ => show win0_4.index t (0 : Fin 1) * 4 + 1 * (y 0).val = (y 0).val; omega

theorem blk5_eq (c : Dev nD) (t : Fin cfg0.N) : blk5 m c t = arr5 m c := by
  funext y
  show V m c main_arg5 (((cfg0.win 5).blk t).view.emb y) = V m c main_arg5 y
  refine congrArg _ (funext fun a => Fin.ext ?_)
  obtain ⟨-, -, -, -, -, -, -, -, -, -, e0, e1, -⟩ := idx_facts t
  match a with
  | ⟨0, _⟩ => show win0_5.index t (0 : Fin 2) * 2 + 1 * (y 0).val = (y 0).val; omega
  | ⟨1, _⟩ => show win0_5.index t (1 : Fin 2) * 4 + 1 * (y 1).val = (y 1).val; omega

theorem blk6_eq (c : Dev nD) (t : Fin cfg0.N) : blk6 m c t = arr6 m c := by
  funext y
  show V m c main_arg6 (((cfg0.win 6).blk t).view.emb y) = V m c main_arg6 y
  refine congrArg _ (funext fun a => Fin.ext ?_)
  obtain ⟨-, -, -, -, -, -, -, -, -, -, -, -, e0, -⟩ := idx_facts t
  match a with
  | ⟨0, _⟩ => show win0_6.index t (0 : Fin 1) * 2 + 1 * (y 0).val = (y 0).val; omega

theorem blk7_eq (c : Dev nD) (t : Fin cfg0.N) : blk7 m c t = arr7 m c := by
  funext y
  show V m c main_arg7 (((cfg0.win 7).blk t).view.emb y) = V m c main_arg7 y
  refine congrArg _ (funext fun a => Fin.ext ?_)
  obtain ⟨-, -, -, -, -, -, -, -, -, -, -, -, -, e0, e1, -⟩ := idx_facts t
  match a with
  | ⟨0, _⟩ => show win0_7.index t (0 : Fin 2) * 1 + 1 * (y 0).val = (y 0).val; omega
  | ⟨1, _⟩ => show win0_7.index t (1 : Fin 2) * 2 + 1 * (y 1).val = (y 1).val; omega

theorem blk8_eq (c : Dev nD) (t : Fin cfg0.N) : blk8 m c t = arr8 m c := by
  funext y
  show V m c main_arg8 (((cfg0.win 8).blk t).view.emb y) = V m c main_arg8 y
  refine congrArg _ (funext fun a => Fin.ext ?_)
  obtain ⟨-, -, -, -, -, -, -, -, -, -, -, -, -, -, -, e0⟩ := idx_facts t
  match a with
  | ⟨0, _⟩ => show win0_8.index t (0 : Fin 1) * 1 + 1 * (y 0).val = (y 0).val; omega

/-- Row `r` of the input window's block at point `t` is row `8192·t + r` of the input array. -/
theorem blk0_row (c : Dev nD) (t : Fin cfg0.N) (r : Fin 8192) (hr : t.val * 8192 + r.val < 4194304) :
    row (blk0 m c t) r = row (arr0 m c) ⟨t.val * 8192 + r.val, hr⟩ := by
  funext k
  show V m c main_arg0 (((cfg0.win 0).blk t).view.emb (ix2 r k)) = V m c main_arg0 (ix2 ⟨t.val * 8192 + r.val, hr⟩ k)
  refine congrArg _ (funext fun a => Fin.ext ?_)
  obtain ⟨e0, e1, e2, -⟩ := idx_facts t
  match a with
  | ⟨0, _⟩ => show win0_0.index t (0 : Fin 2) * 8192 + 1 * r.val = t.val * 8192 + r.val; omega
  | ⟨1, _⟩ => show win0_0.index t (1 : Fin 2) * 6 + 1 * k.val = k.val; omega

/-- WHAT POINT `t` WRITES BACK is block `t` of `G` of the argument arrays. -/
theorem flushed_eq (c : Dev nD) (t : Fin cfg0.N) :
    (dats m 0 c).flushed 9 t = ((cfg0.win 9).blk t).view.read (Elt Ideal)
      (G (arr0 m c) (arr1 m c) (arr2 m c) (arr3 m c) (arr4 m c) (arr5 m c) (arr6 m c) (arr7 m c) (arr8 m c)) := by
  rw [Cert.KernelIdeal.Value.flushed9]
  unfold out0_9
  rw [View.canon_unit_zero hz2]
  simp only [View.ld_unit_zero (S := S8192x6) hz2, View.ld_unit_zero (S := S8x6) hz2, View.ld_unit_zero (S := S8) hz1,
    View.ld_unit_zero (S := S4x8) hz2, View.ld_unit_zero (S := S4) hz1, View.ld_unit_zero (S := S2x4) hz2,
    View.ld_unit_zero (S := S2) hz1, View.ld_unit_zero (S := S1x2) hz2, View.ld_unit_zero (S := S1) hz1]
  have ht : t.val < 512 := t.isLt
  obtain ⟨e0, e1, e2, e3, -⟩ := idx_facts t
  funext y
  obtain ⟨r, q, rfl⟩ : ∃ (r : Fin 8192) (q : Fin 1), y = ix2 r q := ⟨y 0, y 1, eq_ix2 y⟩
  have hr : t.val * 8192 + r.val < 4194304 := by have := r.isLt; omega
  show k0_pay1 (F := Ideal) (k0_pay2 (blk0 m c t) (blk1 m c t) (blk2 m c t) (blk3 m c t) (blk4 m c t) (blk5 m c t) (blk6 m c t) (blk7 m c t) (blk8 m c t))
        (Scalar.ofBits .f32 0x00000000#32)
        (k0_pay3 (blk0 m c t) (blk1 m c t) (blk2 m c t) (blk3 m c t) (blk4 m c t) (blk5 m c t) (blk6 m c t) (blk7 m c t) (blk8 m c t)) (ix2 r q)
      = G (arr0 m c) (arr1 m c) (arr2 m c) (arr3 m c) (arr4 m c) (arr5 m c) (arr6 m c) (arr7 m c) (arr8 m c) (((cfg0.win 9).blk t).view.emb (ix2 r q))
  refine (pay_apply (blk0 m c t) (blk1 m c t) (blk2 m c t) (blk3 m c t) (blk4 m c t) (blk5 m c t) (blk6 m c t) (blk7 m c t) (blk8 m c t) r q).trans ?_
  rw [blk1_eq, blk2_eq, blk3_eq, blk4_eq, blk5_eq, blk6_eq, blk7_eq, blk8_eq, blk0_row m c t r hr]
  unfold G
  refine congrArg (fun s => net (mat (arr1 m c)) (vec (arr2 m c)) (mat (arr3 m c)) (vec (arr4 m c)) (mat (arr5 m c)) (vec (arr6 m c)) (mat (arr7 m c)) (vec (arr8 m c)) (row (arr0 m c) s)) (Fin.ext ?_)
  show t.val * 8192 + r.val = win0_9.index t (0 : Fin 2) * 8192 + 1 * r.val
  omega

/-- An index of the result array is in point `t`'s block iff each coordinate is in the block's range on its axis. -/
theorem mem_blk (t : Fin cfg0.N) (i : S4194304x1.Idx) :
    i ∈ ((cfg0.win 9).blk t).view.set ↔ ∀ a : Fin 2, win0_9.index t a * S8192x1.size a ≤ (i a).val ∧ (i a).val < win0_9.index t a * S8192x1.size a + S8192x1.size a := by
  show i ∈ ((View.whole main_v0).slice (win0_9.rect t)).set ↔ _
  rw [View.set_slice_whole, Rect.mem_set_unit]
  exact Iff.rfl

/-- Every row of the result is in the block of the point `row / 8192`. -/
theorem cover (i : S4194304x1.Idx) : ∃ t : Fin cfg0.N, (cfg0.win 9).flush t = true ∧ i ∈ ((cfg0.win 9).blk t).view.set := by
  have hi0 : (i 0).val < 4194304 := (i 0).isLt
  have hi1 : (i 1).val < 1 := (i 1).isLt
  let t : Fin cfg0.N := ⟨(i 0).val / 8192, show (i 0).val / 8192 < 512 by omega⟩
  have htv : t.val = (i 0).val / 8192 := rfl
  obtain ⟨-, -, e2, e3, -⟩ := idx_facts t
  refine ⟨t, flush0_9 t, ?_⟩
  rw [mem_blk]
  intro a
  match a with
  | ⟨0, _⟩ => show win0_9.index t (0 : Fin 2) * 8192 ≤ (i 0).val ∧ (i 0).val < win0_9.index t (0 : Fin 2) * 8192 + 8192; omega
  | ⟨1, _⟩ => show win0_9.index t (1 : Fin 2) * 1 ≤ (i 1).val ∧ (i 1).val < win0_9.index t (1 : Fin 2) * 1 + 1; omega

/-- THE RESULT ARRAY after the run is `G` of the argument arrays. -/
theorem final (c : Dev nD) : (dats m 0 c).arrAt 9 cfg0.N
    = G (arr0 m c) (arr1 m c) (arr2 m c) (arr3 m c) (arr4 m c) (arr5 m c) (arr6 m c) (arr7 m c) (arr8 m c) :=
  (dats m 0 c).arrAt_eq_of_cover 9 _ (fun t _ => flushed_eq m c t) cover

/-- The kernel's run with its result named: `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.ArrValue

end
-- ==== Proof.RefRow.lean ====
/-
  The reference, read one row at a time.  Its result at row `r` is the network of `Spec.lean` applied to row `r` of
  the input: each `dot_general` against a transposed weight matrix is the sum `∑ k, h k · W j k`, each twice-broadcast
  bias is `b j`, each `maximum` against the broadcast zero is the rectifier, and the final call is the softplus in its
  negation spelling.
-/
import proofs.«130348_j24970939859195_1_alg».proof.Proof.Gen.ReferenceIdeal.Read
import proofs.«130348_j24970939859195_1_alg».proof.Proof.Spec

noncomputable section

namespace Cert.ReferenceIdeal.RefValue

open Cert.ReferenceIdeal Cert.ReferenceIdeal.Read Cert.Mlp Idealize.ShloMosaic Idealize.ShloMosaic.ValueIdx

variable (x0 : S4194304x6.Idx → EReal) (x1 : S8x6.Idx → EReal) (x2 : S8.Idx → EReal) (x3 : S4x8.Idx → EReal)
  (x4 : S4.Idx → EReal) (x5 : S2x4.Idx → EReal) (x6 : S2.Idx → EReal) (x7 : S1x2.Idx → EReal) (x8 : S1.Idx → EReal)

/-! ## Layer 1: 6 → 8 -/

theorem a1_eq (r : Fin 4194304) (j : Fin 8) :
    val_main_v4 (F := Ideal) x0 x1 x2 (ix2 r j) = lin (mat x1) (vec x2) (row x0 r) j := by
  rw [val_main_v4_apply, val_main_v1_apply, val_main_v3_apply, val_main_v2_apply]
  refine congrArg₂ (· + ·) (Finset.sum_congr rfl fun k _ => ?_) ?_
  · rw [val_main_v0_apply]
    refine congrArg₂ (· * ·) (congrArg x0 ?_) (congrArg x1 ?_)
    · funext a; match a with | ⟨0, _⟩ => rfl | ⟨1, _⟩ => rfl
    · funext a; match a with | ⟨0, _⟩ => rfl | ⟨1, _⟩ => rfl
  · refine congrArg x2 ?_
    funext a; match a with | ⟨0, _⟩ => rfl

theorem h1_eq (r : Fin 4194304) (j : Fin 8) :
    val_main_v5 (F := Ideal) x0 x1 x2 (ix2 r j) = relu (lin (mat x1) (vec x2) (row x0 r)) j := by
  rw [val_main_v5_apply, a1_eq, val_main_call0_v0_apply, val_main_call0_cst_apply]
  show max _ (Ideal.ofBits .f32 0x00000000#32) = max _ 0
  rw [Ideal.ofBits_zero_f32]

/-! ## Layer 2: 8 → 4 -/

theorem a2_eq (r : Fin 4194304) (j : Fin 4) :
    val_main_v10 (F := Ideal) x0 x1 x2 x3 x4 (ix2 r j)
      = lin (mat x3) (vec x4) (relu (lin (mat x1) (vec x2) (row x0 r))) j := by
  rw [val_main_v10_apply, val_main_v7_apply, val_main_v9_apply, val_main_v8_apply]
  refine congrArg₂ (· + ·) (Finset.sum_congr rfl fun k _ => ?_) ?_
  · rw [val_main_v6_apply, show lidx_main_v7 (ix2 r j) k = ix2 r k from (funext fun a => match a with | ⟨0, _⟩ => rfl | ⟨1, _⟩ => rfl), h1_eq]
    refine congrArg₂ (· * ·) rfl (congrArg x3 ?_)
    funext a; match a with | ⟨0, _⟩ => rfl | ⟨1, _⟩ => rfl
  · refine congrArg x4 ?_
    funext a; match a with | ⟨0, _⟩ => rfl

theorem h2_eq (r : Fin 4194304) (j : Fin 4) :
    val_main_v11 (F := Ideal) x0 x1 x2 x3 x4 (ix2 r j)
      = relu (lin (mat x3) (vec x4) (relu (lin (mat x1) (vec x2) (row x0 r)))) j := by
  rw [val_main_v11_apply, a2_eq, val_main_call1_v0_apply, val_main_call1_cst_apply]
  show max _ (Ideal.ofBits .f32 0x00000000#32) = max _ 0
  rw [Ideal.ofBits_zero_f32]

/-! ## Layer 3: 4 → 2 -/

theorem a3_eq (r : Fin 4194304) (j : Fin 2) :
    val_main_v16 (F := Ideal) x0 x1 x2 x3 x4 x5 x6 (ix2 r j)
      = lin (mat x5) (vec x6) (relu (lin (mat x3) (vec x4) (relu (lin (mat x1) (vec x2) (row x0 r))))) j := by
  rw [val_main_v16_apply, val_main_v13_apply, val_main_v15_apply, val_main_v14_apply]
  refine congrArg₂ (· + ·) (Finset.sum_congr rfl fun k _ => ?_) ?_
  · rw [val_main_v12_apply, show lidx_main_v13 (ix2 r j) k = ix2 r k from (funext fun a => match a with | ⟨0, _⟩ => rfl | ⟨1, _⟩ => rfl), h2_eq]
    refine congrArg₂ (· * ·) rfl (congrArg x5 ?_)
    funext a; match a with | ⟨0, _⟩ => rfl | ⟨1, _⟩ => rfl
  · refine congrArg x6 ?_
    funext a; match a with | ⟨0, _⟩ => rfl

theorem h3_eq (r : Fin 4194304) (j : Fin 2) :
    val_main_v17 (F := Ideal) x0 x1 x2 x3 x4 x5 x6 (ix2 r j)
      = relu (lin (mat x5) (vec x6) (relu (lin (mat x3) (vec x4) (relu (lin (mat x1) (vec x2) (row x0 r)))))) j := by
  rw [val_main_v17_apply, a3_eq, val_main_call2_v0_apply, val_main_call2_cst_apply]
  show max _ (Ideal.ofBits .f32 0x00000000#32) = max _ 0
  rw [Ideal.ofBits_zero_f32]

/-! ## Layer 4: 2 → 1, and the softplus -/

theorem a4_eq (r : Fin 4194304) (j : Fin 1) :
    val_main_v22 (F := Ideal) x0 x1 x2 x3 x4 x5 x6 x7 x8 (ix2 r j)
      = lin (mat x7) (vec x8)
          (relu (lin (mat x5) (vec x6) (relu (lin (mat x3) (vec x4) (relu (lin (mat x1) (vec x2) (row x0 r))))))) j := by
  rw [val_main_v22_apply, val_main_v19_apply, val_main_v21_apply, val_main_v20_apply]
  refine congrArg₂ (· + ·) (Finset.sum_congr rfl fun k _ => ?_) ?_
  · rw [val_main_v18_apply, show lidx_main_v19 (ix2 r j) k = ix2 r k from (funext fun a => match a with | ⟨0, _⟩ => rfl | ⟨1, _⟩ => rfl), h3_eq]
    refine congrArg₂ (· * ·) rfl (congrArg x7 ?_)
    funext a; match a with | ⟨0, _⟩ => rfl | ⟨1, _⟩ => rfl
  · refine congrArg x8 ?_
    funext a; match a with | ⟨0, _⟩ => exact Fin.ext (show 0 = j.val by have := j.isLt; omega)

/-- THE REFERENCE AT A ROW: the network of that row of the input. -/
theorem ref_apply (r : Fin 4194304) (q : Fin 1) :
    val_main_v23 (F := Ideal) x0 x1 x2 x3 x4 x5 x6 x7 x8 (ix2 r q)
      = net (mat x1) (vec x2) (mat x3) (vec x4) (mat x5) (vec x6) (mat x7) (vec x8) (row x0 r) := by
  obtain rfl : q = 0 := Subsingleton.elim _ _
  rw [val_main_v23_apply, val_main_call3_v4_apply, val_main_call3_v6_apply, val_main_call3_v11_apply,
    val_main_call3_v1_apply, val_main_call3_v10_apply, val_main_call3_v9_apply, val_main_call3_v8_apply,
    val_main_call3_v7_apply, val_main_call3_v3_apply, a4_eq, val_main_call3_v0_apply, val_main_call3_v2_apply,
    val_main_call3_v5_apply, val_main_call3_cst_apply,
    show (FloatOps.ofBits .f32 0x00000000#32 : Ideal .f32) = 0 from Ideal.ofBits_zero_f32]
  exact softplus_neg _

end Cert.ReferenceIdeal.RefValue

end
-- ==== Proof.lean ====
/-
  A four-layer perceptron on 4,194,304 rows of six features — affine layers 6 → 8 → 4 → 2 → 1, a rectifier after each of
  the first three, a softplus after the last — computed by a kernel that streams the rows in 512 blocks of 8192, against
  the same network written with whole-array operations.

  Over the extended reals the two programs are the same function row by row (`Spec.lean`'s `net`): the kernel's
  `tpu.matmul` into a zero accumulator and the reference's `dot_general` are both `∑ k, h k · W j k`, the biases are
  added after the sum on both sides, `max · 0` is the rectifier on both sides, and both spell the softplus
  `max z 0 + log (1 + exp (-|z|))` behind a guard `z - 0 ≠ z - 0` that is never true.  The only laws used are
  `z - 0 = z`, `z + 0 = z` and `0 - a = -a`, which hold at the infinities too, so the precondition that the inputs are
  finite is not used.

  `KernelRow.lean` reads the kernel body's stored value at a row of a block, `KernelArray.lean` assembles the 512 blocks
  into the result array, `RefRow.lean` reads the reference at a row; here the two meet.  The idealization rewrote no
  operation, so `preserves` is `True`.
-/
import proofs.«130348_j24970939859195_1_alg».proof.Defs
import proofs.«130348_j24970939859195_1_alg».proof.Proof.Gen.Kernel
import proofs.«130348_j24970939859195_1_alg».proof.Proof.Gen.Kernel.Skeleton
import proofs.«130348_j24970939859195_1_alg».proof.Proof.Gen.Kernel.Launch
import proofs.«130348_j24970939859195_1_alg».proof.Proof.Gen.Kernel.Points
import proofs.«130348_j24970939859195_1_alg».proof.Proof.Gen.Kernel.Frame
import proofs.«130348_j24970939859195_1_alg».proof.Proof.Gen.KernelIdeal
import proofs.«130348_j24970939859195_1_alg».proof.Proof.Gen.KernelIdeal.Skeleton
import proofs.«130348_j24970939859195_1_alg».proof.Proof.Gen.KernelIdeal.Launch
import proofs.«130348_j24970939859195_1_alg».proof.Proof.Gen.KernelIdeal.Points
import proofs.«130348_j24970939859195_1_alg».proof.Proof.Gen.KernelIdeal.Frame
import proofs.«130348_j24970939859195_1_alg».proof.Proof.Gen.ReferenceIdeal
import proofs.«130348_j24970939859195_1_alg».proof.Proof.Gen.Pre_finite_inputs
import proofs.«130348_j24970939859195_1_alg».proof.Proof.Gen.KernelIdeal.Value
import proofs.«130348_j24970939859195_1_alg».proof.Proof.Gen.ReferenceIdeal.Run
import proofs.«130348_j24970939859195_1_alg».proof.Proof.Gen.ReferenceIdeal.Read
import proofs.«130348_j24970939859195_1_alg».proof.Proof.Spec
import proofs.«130348_j24970939859195_1_alg».proof.Proof.KernelRow
import proofs.«130348_j24970939859195_1_alg».proof.Proof.KernelArray
import proofs.«130348_j24970939859195_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the network of each input row: the kernel by its blocks
    (`ArrValue.run`), the reference by its run read at a row (`RefValue.ref_apply`), from arguments that agree. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq]
  obtain ⟨h0, h1, h2, h3, h4, h5, h6, h7, h8⟩ := hagree c
  rw [h0, h1, h2, h3, h4, h5, h6, h7, h8]
  funext i
  obtain ⟨r, q, rfl⟩ : ∃ (r : Fin 4194304) (q : Fin 1), i = ix2 r q := ⟨i 0, i 1, eq_ix2 i⟩
  exact Cert.ReferenceIdeal.RefValue.ref_apply _ _ _ _ _ _ _ _ _ r q

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
